-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x32 : Shape := ⟨2, ![2000000, 32]⟩
abbrev S2000000x1 : Shape := ⟨2, ![2000000, 1]⟩
abbrev S50x32 : Shape := ⟨2, ![50, 32]⟩
abbrev S32x32 : Shape := ⟨2, ![32, 32]⟩
abbrev S32 : Shape := ⟨1, ![32]⟩
abbrev S32x1 : Shape := ⟨2, ![32, 1]⟩
abbrev S1 : Shape := ⟨1, ![1]⟩
abbrev S2x50x1 : Shape := ⟨3, ![2, 50, 1]⟩
abbrev S_ : Shape := ⟨0, ![]⟩

class Facts : Prop where
  bcast_S_S2000000x32 : S_.BroadcastsInDim S2000000x32 (![] : Fin 0 → Fin S2000000x32.rank)
  reducesTo_S2000000x32_S_d0_1 : S2000000x32.ReducesTo [0, 1] S_
  h_S_ : 0 < S_.numel
  bcast_S_S50x32 : S_.BroadcastsInDim S50x32 (![] : Fin 0 → Fin S50x32.rank)
  reducesTo_S50x32_S_d0_1 : S50x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x50x1 : S_.BroadcastsInDim S2x50x1 (![] : Fin 0 → Fin S2x50x1.rank)
  reducesTo_S2x50x1_S_d0_1_2 : S2x50x1.ReducesTo [0, 1, 2] S_
  bcast_S_S2000000x1 : S_.BroadcastsInDim S2000000x1 (![] : Fin 0 → Fin S2000000x1.rank)
  reducesTo_S2000000x1_S_d0_1 : S2000000x1.ReducesTo [0, 1] S_

variable [Facts]

def fn_part2 {F : FTy → Type} [FloatOps F] (main_arg1 : IVec S2000000x1 32) (main_arg8 : FVec F S1 .f32) (main_arg9 : FVec F S2x50x1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S2x50x1 .f32 := Host.absf main_arg9
  let main_cst_14 : FVec F S_ .f32 := constant S_ .f32 0x7F800000#32
  let main_v40 : FVec F S2x50x1 .f32 := broadcastInDim S2x50x1 ![] bcast_S_S2x50x1 main_cst_14
  let main_v41 : IVec S2x50x1 1 := cmpf .olt main_v39 main_v40
  let main_c_15 : IVec S_ 1 := constantI S_ 1 1#1
  let main_v42 : IVec S_ 1 := (fun x v => Host.reduce IntOp.andi x v reducesTo_S2x50x1_S_d0_1_2 h_S_) main_v41 main_c_15
  let main_v43 : IVec S_ 1 := andi main_v38 main_v42
  let main_c_16 : IVec S_ 32 := constantI S_ 32 0#32
  let main_v44 : IVec S2000000x1 32 := broadcastInDim S2000000x1 ![] bcast_S_S2000000x1 main_c_16
  let main_v45 : IVec S2000000x1 1 := cmpi .sge main_arg1 main_v44
  let main_c_17 : IVec S_ 32 := constantI S_ 32 50#32
  let main_v46 : IVec S2000000x1 32 := broadcastInDim S2000000x1 ![] bcast_S_S2000000x1 main_c_17
  let main_v47 : IVec S2000000x1 1 := cmpi .slt main_arg1 main_v46
  let main_v48 : IVec S2000000x1 1 := andi main_v45 main_v47
  let main_c_18 : IVec S_ 1 := constantI S_ 1 1#1
  let main_v49 : IVec S_ 1 := (fun x v => Host.reduce IntOp.andi x v reducesTo_S2000000x1_S_d0_1 h_S_) main_v48 main_c_18
  let main_v50 : IVec S_ 1 := andi main_v43 main_v49
  main_v50

def fn_part1 {F : FTy → Type} [FloatOps F] (main_arg1 : IVec S2000000x1 32) (main_arg5 : FVec F S32x32 .f32) (main_arg6 : FVec F S32 .f32) (main_arg7 : FVec F S32x1 .f32) (main_arg8 : FVec F S1 .f32) (main_arg9 : FVec F S2x50x1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg7
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg1 main_arg8 main_arg9 main_v33

def fn {F : FTy → Type} [FloatOps F] (main_arg0 : FVec F S2000000x32 .f32) (main_arg1 : IVec S2000000x1 32) (main_arg2 : FVec F S50x32 .f32) (main_arg3 : FVec F S32x32 .f32) (main_arg4 : FVec F S32 .f32) (main_arg5 : FVec F S32x32 .f32) (main_arg6 : FVec F S32 .f32) (main_arg7 : FVec F S32x1 .f32) (main_arg8 : FVec F S1 .f32) (main_arg9 : FVec F S2x50x1 .f32) : IVec S_ 1 :=
  let main_v0 : FVec F S2000000x32 .f32 := Host.absf main_arg0
  let main_cst : FVec F S_ .f32 := constant S_ .f32 0x7F800000#32
  let main_v1 : FVec F S2000000x32 .f32 := broadcastInDim S2000000x32 ![] bcast_S_S2000000x32 main_cst
  let main_v2 : IVec S2000000x32 1 := cmpf .olt main_v0 main_v1
  let main_c : IVec S_ 1 := constantI S_ 1 1#1
  let main_v3 : IVec S_ 1 := (fun x v => Host.reduce IntOp.andi x v reducesTo_S2000000x32_S_d0_1 h_S_) main_v2 main_c
  let main_v4 : FVec F S50x32 .f32 := Host.absf main_arg2
  let main_cst_0 : FVec F S_ .f32 := constant S_ .f32 0x7F800000#32
  let main_v5 : FVec F S50x32 .f32 := broadcastInDim S50x32 ![] bcast_S_S50x32 main_cst_0
  let main_v6 : IVec S50x32 1 := cmpf .olt main_v4 main_v5
  let main_c_1 : IVec S_ 1 := constantI S_ 1 1#1
  let main_v7 : IVec S_ 1 := (fun x v => Host.reduce IntOp.andi x v reducesTo_S50x32_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg5 main_arg6 main_arg7 main_arg8 main_arg9 main_v13 main_v16
-- ==== Kernel.lean ====
abbrev S2000000x32 : Shape := ⟨2, ![2000000, 32]⟩
abbrev S2000000x1 : Shape := ⟨2, ![2000000, 1]⟩
abbrev S50x32 : Shape := ⟨2, ![50, 32]⟩
abbrev S32x32 : Shape := ⟨2, ![32, 32]⟩
abbrev S32 : Shape := ⟨1, ![32]⟩
abbrev S32x1 : Shape := ⟨2, ![32, 1]⟩
abbrev S1 : Shape := ⟨1, ![1]⟩
abbrev S2x50x1 : Shape := ⟨3, ![2, 50, 1]⟩
abbrev S1x32 : Shape := ⟨2, ![1, 32]⟩
abbrev S_ : Shape := ⟨0, ![]⟩
abbrev S50x1 : Shape := ⟨2, ![50, 1]⟩
abbrev S1x1 : Shape := ⟨2, ![1, 1]⟩
abbrev S1x50x1 : Shape := ⟨3, ![1, 50, 1]⟩
abbrev S128 : Shape := ⟨1, ![128]⟩
abbrev S50 : Shape := ⟨1, ![50]⟩
abbrev S1x128 : Shape := ⟨2, ![1, 128]⟩
abbrev S2000000 : Shape := ⟨1, ![2000000]⟩
abbrev S15625x128 : Shape := ⟨2, ![15625, 128]⟩
abbrev S8192x128 : Shape := ⟨2, ![8192, 128]⟩
abbrev S8192x128x1 : Shape := ⟨3, ![8192, 128, 1]⟩

abbrev nBuf : Space → Nat
  | .hbm => 68
  | .vmem => 5
  | .smem => 0
  | _ => 0

abbrev bufTy : (tb : Table) → Fin (tcTables nBuf tb) → BufTy
  | .hbm, ⟨0, _⟩ => ⟨S2000000x32, .f32⟩
  | .hbm, ⟨1, _⟩ => ⟨S2000000x1, .i32⟩
  | .hbm, ⟨2, _⟩ => ⟨S50x32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S2x50x1, .f32⟩
  | .hbm, ⟨10, _⟩ => ⟨S50x32, .f32⟩
  | .hbm, ⟨11, _⟩ => ⟨S1x32, .f32⟩
  | .hbm, ⟨12, _⟩ => ⟨S50x32, .f32⟩
  | .hbm, ⟨13, _⟩ => ⟨S50x32, .f32⟩
  | .hbm, ⟨14, _⟩ => ⟨S_, .f32⟩
  | .hbm, ⟨15, _⟩ => ⟨S50x32, .f32⟩
  | .hbm, ⟨16, _⟩ => ⟨S50x32, .f32⟩
  | .hbm, ⟨17, _⟩ => ⟨S50x32, .f32⟩
  | .hbm, ⟨18, _⟩ => ⟨S1x32, .f32⟩
  | .hbm, ⟨19, _⟩ => ⟨S50x32, .f32⟩
  | .hbm, ⟨20, _⟩ => ⟨S50x32, .f32⟩
  | .hbm, ⟨21, _⟩ => ⟨S_, .f32⟩
  | .hbm, ⟨22, _⟩ => ⟨S50x32, .f32⟩
  | .hbm, ⟨23, _⟩ => ⟨S50x32, .f32⟩
  | .hbm, ⟨24, _⟩ => ⟨S50x1, .f32⟩
  | .hbm, ⟨25, _⟩ => ⟨S1x1, .f32⟩
  | .hbm, ⟨26, _⟩ => ⟨S50x1, .f32⟩
  | .hbm, ⟨27, _⟩ => ⟨S50x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x50x1, .f32⟩
  | .hbm, ⟨32, _⟩ => ⟨S2x50x1, .f32⟩
  | .hbm, ⟨33, _⟩ => ⟨S_, .f32⟩
  | .hbm, ⟨34, _⟩ => ⟨S2x50x1, .f32⟩
  | .hbm, ⟨35, _⟩ => ⟨S2x50x1, .f32⟩
  | .hbm, ⟨36, _⟩ => ⟨S1x50x1, .f32⟩
  | .hbm, ⟨37, _⟩ => ⟨S50x1, .f32⟩
  | .hbm, ⟨38, _⟩ => ⟨S50x1, .f32⟩
  | .hbm, ⟨39, _⟩ => ⟨S1x50x1, .f32⟩
  | .hbm, ⟨40, _⟩ => ⟨S50x1, .f32⟩
  | .hbm, ⟨41, _⟩ => ⟨S50x1, .f32⟩
  | .hbm, ⟨42, _⟩ => ⟨S50x1, .f32⟩
  | .hbm, ⟨43, _⟩ => ⟨S_, .f32⟩
  | .hbm, ⟨44, _⟩ => ⟨S50x1, .f32⟩
  | .hbm, ⟨45, _⟩ => ⟨S50x1, .f32⟩
  | .hbm, ⟨46, _⟩ => ⟨S50x1, .f32⟩
  | .hbm, ⟨47, _⟩ => ⟨S50x1, .f32⟩
  | .hbm, ⟨48, _⟩ => ⟨S50x1, .f32⟩
  | .hbm, ⟨49, _⟩ => ⟨S50x1, .f32⟩
  | .hbm, ⟨50, _⟩ => ⟨S50x1, .f32⟩
  | .hbm, ⟨51, _⟩ => ⟨S_, .f32⟩
  | .hbm, ⟨52, _⟩ => ⟨S50x1, .f32⟩
  | .hbm, ⟨53, _⟩ => ⟨S50x1, .f32⟩
  | .hbm, ⟨54, _⟩ => ⟨S_, .f32⟩
  | .hbm, ⟨55, _⟩ => ⟨S50x1, .f32⟩
  | .hbm, ⟨56, _⟩ => ⟨S50x1, .f32⟩
  | .hbm, ⟨57, _⟩ => ⟨S_, .f32⟩
  | .hbm, ⟨58, _⟩ => ⟨S128, .f32⟩
  | .hbm, ⟨59, _⟩ => ⟨S50, .f32⟩
  | .hbm, ⟨60, _⟩ => ⟨S_, .i32⟩
  | .hbm, ⟨61, _⟩ => ⟨S1, .i32⟩
  | .hbm, ⟨62, _⟩ => ⟨S128, .f32⟩
  | .hbm, ⟨63, _⟩ => ⟨S1x128, .f32⟩
  | .hbm, ⟨64, _⟩ => ⟨S2000000, .i32⟩
  | .hbm, ⟨65, _⟩ => ⟨S15625x128, .i32⟩
  | .hbm, ⟨66, _⟩ => ⟨S15625x128, .f32⟩
  | .hbm, ⟨67, _⟩ => ⟨S2000000x1, .f32⟩
  | .local _ .vmem, ⟨0, _⟩ => ⟨S1x128, .f32⟩
  | .local _ .vmem, ⟨1, _⟩ => ⟨S8192x128, .i32⟩
  | .local _ .vmem, ⟨2, _⟩ => ⟨S8192x128, .i32⟩
  | .local _ .vmem, ⟨3, _⟩ => ⟨S8192x128, .f32⟩
  | .local _ .vmem, ⟨4, _⟩ => ⟨S8192x128, .f32⟩
  | _, _ => ⟨S2000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_cst_0 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_c : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S32_S1x32_1 : S32.BroadcastsInDim S1x32 (![1] : Fin 1 → Fin S1x32.rank)
  bcast_S1x32_S50x32_0_1 : S1x32.BroadcastsInDim S50x32 (![0, 1] : Fin 2 → Fin S50x32.rank)
  bcast_S_S50x32 : S_.BroadcastsInDim S50x32 (![] : Fin 0 → Fin S50x32.rank)
  bcast_S1_S1x1_1 : S1.BroadcastsInDim S1x1 (![1] : Fin 1 → Fin S1x1.rank)
  bcast_S1x1_S50x1_0_1 : S1x1.BroadcastsInDim S50x1 (![0, 1] : Fin 2 → Fin S50x1.rank)
  bcast_S_S2x50x1 : S_.BroadcastsInDim S2x50x1 (![] : Fin 0 → Fin S2x50x1.rank)
  slices_S2x50x1_S1x50x1_1_0_0 : S2x50x1.Slices ![1, 0, 0] S1x50x1
  shapeCasts_S1x50x1_S50x1 : S1x50x1.ShapeCasts S50x1
  slices_S2x50x1_S1x50x1_0_0_0 : S2x50x1.Slices ![0, 0, 0] S1x50x1
  bcast_S_S50x1 : S_.BroadcastsInDim S50x1 (![] : Fin 0 → Fin S50x1.rank)
  bcast_S_S128 : S_.BroadcastsInDim S128 (![] : Fin 0 → Fin S128.rank)
  shapeCasts_S50x1_S50 : S50x1.ShapeCasts S50
  bcast_S_S1 : S_.BroadcastsInDim S1 (![] : Fin 0 → Fin S1.rank)
  shapeCasts_S128_S1x128 : S128.ShapeCasts S1x128
  shapeCasts_S2000000x1_S2000000 : S2000000x1.ShapeCasts S2000000
  shapeCasts_S2000000_S15625x128 : S2000000.ShapeCasts S15625x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S8192x128x1 : S8192x128.ShapeCasts S8192x128x1
  shapeCasts_S8192x128x1_S8192x128 : S8192x128x1.ShapeCasts S8192x128
  shapeCasts_S15625x128_S2000000x1 : S15625x128.ShapeCasts S2000000x1
  dot_S50x32_S32x32_S50x32_1_0_0_1_n_n_wf : DotDims.WF S50x32 S32x32 S50x32 [1] [0] [0] [1] [] []
  dot_S50x32_S32x1_S50x1_1_0_0_1_n_n_wf : DotDims.WF S50x32 S32x1 S50x1 [1] [0] [0] [1] [] []
  scatter_S128_S1_S50_0_n_0_0_wf : ScatterDims.WF S128 S1 S50 [0] [] [0] 0
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x128.size a
  hwx0_0 : ∀ i : grid0.Coords, EltTy.bits .f32 = 32 ∨ (Rect.block (s := S1x128) S1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S15625x128.size a
  hwx0_1 : ∀ i : grid0.Coords, EltTy.bits .i32 = 32 ∨ (Rect.unit (s := S15625x128) (fun a => cc0_transform_1 i a * S8192x128.size a) (fun a => (Pipeline.Clip.of (cc0_transform_1 i a) (S8192x128.size a) (S15625x128.size a)).extent (S8192x128.size a)) fun a => Pipeline.Clip.inb (Pipeline.Clip.ok_of (hstart0_1 i a))).WholeWords (EltTy.packing .i32)
  hwxs0_1 : ∀ i : grid0.Coords, EltTy.bits .i32 = 32 ∨ (Rect.unit (s := S8192x128) (fun _ => 0) (fun a => (Pipeline.Clip.of (cc0_transform_1 i a) (S8192x128.size a) (S15625x128.size a)).extent (S8192x128.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x128.size a < S15625x128.size a
  hwx0_2 : ∀ i : grid0.Coords, EltTy.bits .f32 = 32 ∨ (Rect.unit (s := S15625x128) (fun a => cc0_transform_2 i a * S8192x128.size a) (fun a => (Pipeline.Clip.of (cc0_transform_2 i a) (S8192x128.size a) (S15625x128.size a)).extent (S8192x128.size a)) fun a => Pipeline.Clip.inb (Pipeline.Clip.ok_of (hstart0_2 i a))).WholeWords (EltTy.packing .f32)
  hwxs0_2 : ∀ i : grid0.Coords, EltTy.bits .f32 = 32 ∨ (Rect.unit (s := S8192x128) (fun _ => 0) (fun a => (Pipeline.Clip.of (cc0_transform_2 i a) (S8192x128.size a) (S15625x128.size a)).extent (S8192x128.size a)) fun a => (Nat.zero_add _).trans_le (Pipeline.Clip.extent_le (Pipeline.Clip.ok_of (hstart0_2 i a)))).WholeWords (EltTy.packing .f32)

variable [Facts₀]

def dot_S50x32_S32x32_S50x32_1_0_0_1_n_n : DotDims S50x32 S32x32 S50x32 where
  lhsContracting := [1]
  rhsContracting := [0]
  lhsNonContracting := [0]
  rhsNonContracting := [1]
  lhsBatch := []
  rhsBatch := []
  wf := dot_S50x32_S32x32_S50x32_1_0_0_1_n_n_wf
def dot_S50x32_S32x1_S50x1_1_0_0_1_n_n : DotDims S50x32 S32x1 S50x1 where
  lhsContracting := [1]
  rhsContracting := [0]
  lhsNonContracting := [0]
  rhsNonContracting := [1]
  lhsBatch := []
  rhsBatch := []
  wf := dot_S50x32_S32x1_S50x1_1_0_0_1_n_n_wf
def scatter_S128_S1_S50_0_n_0_0 : ScatterDims S128 S1 S50 where
  updateWindowDims := [0]
  insertedWindowDims := []
  scatterDimsToOperandDims := [0]
  indexVectorDim := 0
  wf := scatter_S128_S1_S50_0_n_0_0_wf

abbrev win0_0 : Pipeline.Window sig grid0 :=
  Pipeline.Window.ofSpec (Memref.whole main_v37) S1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v39) S8192x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v40) S8192x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000x32 : Shape := ⟨2, ![2000000, 32]⟩
abbrev S2000000x1 : Shape := ⟨2, ![2000000, 1]⟩
abbrev S50x32 : Shape := ⟨2, ![50, 32]⟩
abbrev S32x32 : Shape := ⟨2, ![32, 32]⟩
abbrev S32 : Shape := ⟨1, ![32]⟩
abbrev S32x1 : Shape := ⟨2, ![32, 1]⟩
abbrev S1 : Shape := ⟨1, ![1]⟩
abbrev S2x50x1 : Shape := ⟨3, ![2, 50, 1]⟩
abbrev S1x32 : Shape := ⟨2, ![1, 32]⟩
abbrev S_ : Shape := ⟨0, ![]⟩
abbrev S50x1 : Shape := ⟨2, ![50, 1]⟩
abbrev S1x1 : Shape := ⟨2, ![1, 1]⟩
abbrev S1x50x1 : Shape := ⟨3, ![1, 50, 1]⟩
abbrev S2000000 : Shape := ⟨1, ![2000000]⟩

abbrev nBuf : Space → Nat
  | .hbm => 67
  | .vmem => 0
  | .smem => 0
  | _ => 0

abbrev bufTy : (tb : Table) → Fin (tcTables nBuf tb) → BufTy
  | .hbm, ⟨0, _⟩ => ⟨S2000000x32, .f32⟩
  | .hbm, ⟨1, _⟩ => ⟨S2000000x1, .i32⟩
  | .hbm, ⟨2, _⟩ => ⟨S50x32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S2x50x1, .f32⟩
  | .hbm, ⟨10, _⟩ => ⟨S50x32, .f32⟩
  | .hbm, ⟨11, _⟩ => ⟨S1x32, .f32⟩
  | .hbm, ⟨12, _⟩ => ⟨S50x32, .f32⟩
  | .hbm, ⟨13, _⟩ => ⟨S50x32, .f32⟩
  | .hbm, ⟨14, _⟩ => ⟨S_, .f32⟩
  | .hbm, ⟨15, _⟩ => ⟨S50x32, .f32⟩
  | .hbm, ⟨16, _⟩ => ⟨S50x32, .f32⟩
  | .hbm, ⟨17, _⟩ => ⟨S50x32, .f32⟩
  | .hbm, ⟨18, _⟩ => ⟨S1x32, .f32⟩
  | .hbm, ⟨19, _⟩ => ⟨S50x32, .f32⟩
  | .hbm, ⟨20, _⟩ => ⟨S50x32, .f32⟩
  | .hbm, ⟨21, _⟩ => ⟨S_, .f32⟩
  | .hbm, ⟨22, _⟩ => ⟨S50x32, .f32⟩
  | .hbm, ⟨23, _⟩ => ⟨S50x32, .f32⟩
  | .hbm, ⟨24, _⟩ => ⟨S50x1, .f32⟩
  | .hbm, ⟨25, _⟩ => ⟨S1x1, .f32⟩
  | .hbm, ⟨26, _⟩ => ⟨S50x1, .f32⟩
  | .hbm, ⟨27, _⟩ => ⟨S50x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x50x1, .f32⟩
  | .hbm, ⟨32, _⟩ => ⟨S2x50x1, .f32⟩
  | .hbm, ⟨33, _⟩ => ⟨S_, .f32⟩
  | .hbm, ⟨34, _⟩ => ⟨S2x50x1, .f32⟩
  | .hbm, ⟨35, _⟩ => ⟨S2x50x1, .f32⟩
  | .hbm, ⟨36, _⟩ => ⟨S1x50x1, .f32⟩
  | .hbm, ⟨37, _⟩ => ⟨S50x1, .f32⟩
  | .hbm, ⟨38, _⟩ => ⟨S50x1, .f32⟩
  | .hbm, ⟨39, _⟩ => ⟨S1x50x1, .f32⟩
  | .hbm, ⟨40, _⟩ => ⟨S50x1, .f32⟩
  | .hbm, ⟨41, _⟩ => ⟨S50x1, .f32⟩
  | .hbm, ⟨42, _⟩ => ⟨S50x1, .f32⟩
  | .hbm, ⟨43, _⟩ => ⟨S_, .f32⟩
  | .hbm, ⟨44, _⟩ => ⟨S50x1, .f32⟩
  | .hbm, ⟨45, _⟩ => ⟨S50x1, .f32⟩
  | .hbm, ⟨46, _⟩ => ⟨S50x1, .f32⟩
  | .hbm, ⟨47, _⟩ => ⟨S50x1, .f32⟩
  | .hbm, ⟨48, _⟩ => ⟨S50x1, .f32⟩
  | .hbm, ⟨49, _⟩ => ⟨S50x1, .f32⟩
  | .hbm, ⟨50, _⟩ => ⟨S50x1, .f32⟩
  | .hbm, ⟨51, _⟩ => ⟨S_, .f32⟩
  | .hbm, ⟨52, _⟩ => ⟨S50x1, .f32⟩
  | .hbm, ⟨53, _⟩ => ⟨S50x1, .f32⟩
  | .hbm, ⟨54, _⟩ => ⟨S_, .f32⟩
  | .hbm, ⟨55, _⟩ => ⟨S50x1, .f32⟩
  | .hbm, ⟨56, _⟩ => ⟨S50x1, .f32⟩
  | .hbm, ⟨57, _⟩ => ⟨S2000000, .i32⟩
  | .hbm, ⟨58, _⟩ => ⟨S_, .i32⟩
  | .hbm, ⟨59, _⟩ => ⟨S2000000, .i32⟩
  | .hbm, ⟨60, _⟩ => ⟨S2000000, .i1⟩
  | .hbm, ⟨61, _⟩ => ⟨S_, .i32⟩
  | .hbm, ⟨62, _⟩ => ⟨S2000000, .i32⟩
  | .hbm, ⟨63, _⟩ => ⟨S2000000, .i32⟩
  | .hbm, ⟨64, _⟩ => ⟨S2000000, .i32⟩
  | .hbm, ⟨65, _⟩ => ⟨S2000000x1, .i32⟩
  | .hbm, ⟨66, _⟩ => ⟨S2000000x1, .f32⟩
  | _, _ => ⟨S2000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_cst_0 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c : Ref sig .tc := ⟨.hbm, 58, rfl⟩
abbrev main_v34 : Ref sig .tc := ⟨.hbm, 59, rfl⟩
abbrev main_v35 : Ref sig .tc := ⟨.hbm, 60, rfl⟩
abbrev main_c_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S50x32_0_1 : S1x32.BroadcastsInDim S50x32 (![0, 1] : Fin 2 → Fin S50x32.rank)
  bcast_S_S50x32 : S_.BroadcastsInDim S50x32 (![] : Fin 0 → Fin S50x32.rank)
  bcast_S1_S1x1_1 : S1.BroadcastsInDim S1x1 (![1] : Fin 1 → Fin S1x1.rank)
  bcast_S1x1_S50x1_0_1 : S1x1.BroadcastsInDim S50x1 (![0, 1] : Fin 2 → Fin S50x1.rank)
  bcast_S_S2x50x1 : S_.BroadcastsInDim S2x50x1 (![] : Fin 0 → Fin S2x50x1.rank)
  slices_S2x50x1_S1x50x1_1_0_0 : S2x50x1.Slices ![1, 0, 0] S1x50x1
  shapeCasts_S1x50x1_S50x1 : S1x50x1.ShapeCasts S50x1
  slices_S2x50x1_S1x50x1_0_0_0 : S2x50x1.Slices ![0, 0, 0] S1x50x1
  bcast_S_S50x1 : S_.BroadcastsInDim S50x1 (![] : Fin 0 → Fin S50x1.rank)
  shapeCasts_S2000000x1_S2000000 : S2000000x1.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  dot_S50x32_S32x32_S50x32_1_0_0_1_n_n_wf : DotDims.WF S50x32 S32x32 S50x32 [1] [0] [0] [1] [] []
  dot_S50x32_S32x1_S50x1_1_0_0_1_n_n_wf : DotDims.WF S50x32 S32x1 S50x1 [1] [0] [0] [1] [] []
  gather_S50x1_S2000000x1_S2000000x1_1_0_n_n_0_1_11_wf : GatherDims.WF S50x1 S2000000x1 S2000000x1 [1] [0] [] [0] [] 1 ![1, 1]

variable [Facts₀]

def dot_S50x32_S32x32_S50x32_1_0_0_1_n_n : DotDims S50x32 S32x32 S50x32 where
  lhsContracting := [1]
  rhsContracting := [0]
  lhsNonContracting := [0]
  rhsNonContracting := [1]
  lhsBatch := []
  rhsBatch := []
  wf := dot_S50x32_S32x32_S50x32_1_0_0_1_n_n_wf
def dot_S50x32_S32x1_S50x1_1_0_0_1_n_n : DotDims S50x32 S32x1 S50x1 where
  lhsContracting := [1]
  rhsContracting := [0]
  lhsNonContracting := [0]
  rhsNonContracting := [1]
  lhsBatch := []
  rhsBatch := []
  wf := dot_S50x32_S32x1_S50x1_1_0_0_1_n_n_wf
def gather_S50x1_S2000000x1_S2000000x1_1_0_n_n_0_1_11 : GatherDims S50x1 S2000000x1 S2000000x1 where
  offsetDims := [1]
  collapsedSliceDims := [0]
  operandBatchingDims := []
  startIndicesBatchingDims := []
  startIndexMap := [0]
  indexVectorDim := 1
  sliceSizes := ![1, 1]
  wf := gather_S50x1_S2000000x1_S2000000x1_1_0_n_n_0_1_11_wf

class Facts : Prop extends Facts₀ where

variable [Facts]
-- ==== Proof.LookupWord.lean ====
/-
  One grid point of the table lookup, and the program's run around it (stated for any float instance).

  @main first computes, on the host, a table of 128 values (50 cluster probabilities, then zeros) and lays the
  2,000,000 cluster ids out as a 15625 × 128 array. The pallas_call walks that array in two blocks of 8192 rows.
  At a point it holds the table as a row [1, 128] and a block of ids [8192, 128], and stores at lane (p, q) the
  row's entry numbered by the low seven bits of the id at (p, q).

  The second block overhangs the array by 759 rows. Its fetch brings in the 7433 rows that exist and leaves the
  rest of the staging buffer at arbitrary words; the body runs on all 8192 rows; the write-back writes the first
  7433 rows of the result and nothing past the array. So the proof never says what the overhanging rows hold. What
  makes that harmless is `lookup_congr`: lane (p, q) of the stored block depends on the ids block through the
  word at (p, q) alone, so the rows that are written back are the same whatever the others hold (`lookup_cut`).

  The run (`run_main`): every weakly fair execution terminates, nothing faults, each array of the pipeline ends
  at what the write-backs made of it, every other buffer as the host lines after the call leave it; and the ten
  argument arrays are unchanged (`frame`).
-/
import proofs.«422023_j26886495273500_3_alg».proof.Proof.Gen.Kernel.Frame
import proofs.«422023_j26886495273500_3_alg».proof.Proof.Gen.Kernel.Skeleton
import Idealize.ShloMosaic.Lib.Pipeline.Value
import Idealize.ShloMosaic.Lib.Pipeline.FrameBody
import Idealize.ShloMosaic.Lib.Pipeline.FrameSuffix
import Idealize.ShloMosaic.Lib.Tactic

set_option maxRecDepth 16384

noncomputable section

namespace Cert.Kernel.Lookup

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The stored value, lane by lane -/

/-- The word a lane gathers with: the id's low seven bits. (The kernel also spells out the wrap of a negative
    index, "add 128 if below zero"; on a masked word that test never fires, but nothing here needs to know.) -/
def laneWord (w : BitVec 32) : BitVec 32 :=
  Scalar.select (IntOp.cmpi .slt (IntOp.andi w 127#32) 0#32) (IntOp.addi (IntOp.andi w 127#32) 128#32) (IntOp.andi w 127#32)

/-- The value one grid point stores: the table row, repeated down the 8192 rows, gathered along the lanes by each
    lane's own word. The casts of the ids block to rank 3 and back, and the row's casts to its own shape, are
    identities. -/
theorem lookup_eq (row : Vec F S1x128 .f32) (ids : Vec F S8192x128 .i32) :
    k0_pay1 row ids = dynamicGather 1 (broadcastTo S8192x128 row broadcasts_S1x128_S8192x128)
      (fun j => laneWord (ids j)) := by
  unfold k0_pay1
  simp only [shapeCast_self, shapeCast_shapeCast]
  rfl

/-- Lane `j` of the stored value depends on the ids block through its word at `j` alone. -/
theorem lookup_congr (row : Vec F S1x128 .f32) (X Y : Vec F S8192x128 .i32) (j : S8192x128.Idx) (h : X j = Y j) :
    k0_pay1 row X j = k0_pay1 row Y j := by
  rw [lookup_eq, lookup_eq]
  unfold dynamicGather
  simp only [h]

/-! ## One grid point's body -/

/-- Both the loads and the store go through the whole buffer: the rectangle at offset zero of the buffer's own size. -/
theorem zeroOffsets : (![0, 0] : Fin 2 → Nat) = fun _ => 0 := funext fun a => by fin_cases a <;> rfl

/-- A buffer into which ONE store through its whole rectangle was made reads back as the stored value, whatever it
    held before (stated over any shape: at a literal shape of thousands of rows the membership of an index in the
    rectangle is expensive to elaborate). -/
theorem read_after_whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-- The body on whole staging memrefs: it reads the row and the ids block, leaves both as they were, and
    overwrites the result's buffer, whatever it held, with the looked-up block. -/
theorem lookup_triple (c : Dev nD) (E : Set ℕ) (i : grid0.Coords)
    (a1 : Memref sig .tc .vmem S1x128 .f32) (h1 : a1.IsWhole) (a2 : Memref sig .tc .vmem S8192x128 .i32) (h2 : a2.IsWhole)
    (a3 : Memref sig .tc .vmem S8192x128 .f32) (h3 : a3.IsWhole)
    (row : Vec F S1x128 .f32) (ids : Vec F S8192x128 .i32) (K : PUnit → sProp 𝕄) :
    iprop(owns (c : Thread nD τ) a1 fullShare row ∗ owns (c : Thread nD τ) a2 fullShare ids
        ∗ (∃ old, owns (c : Thread nD τ) a3 fullShare old)
        ∗ (iprop(owns (c : Thread nD τ) a1 fullShare row ∗ owns (c : Thread nD τ) a2 fullShare ids
              ∗ owns (c : Thread nD τ) a3 fullShare (k0_pay1 row ids)) -∗ K ⟨⟩))
      ⊢ wp frame (wpE (defs₀ (F := F)) Variants.none c none) E (cc0__gather_kernel i a1 h1 a2 h2 a3 h3) K := by
  simp only [cc0__gather_kernel_eq_skeleton]; unfold cc0__gather_kernel_skel
  unfold owns
  iintro ⟨⟨%f1, %e1, H1⟩, ⟨%f2, %e2, H2⟩, ⟨%old, %f3, -, H3⟩, Hk⟩
  subst e1 e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- the one store covers the buffer; the two loads read the whole buffers
  rw [read_after_whole_store _ _ zeroOffsets]
  simp only [View.readAt_eq_ld, View.ld_unit_zero (S := S1x128) zeroOffsets, View.ld_unit_zero (S := S8192x128) zeroOffsets]

variable (m : (ℓ : Loc nD τ sig) → Buf (Elt F) ℓ) (ρ : Dev nD → PrngReg)

/-! ## What the staging buffers hold between points -/

/-- The ids block of point `t`, padded: the block's rows inside the array (all 8192 at the first point, the
    array's last 7433 at the second) with the overhanging rows at the zero word. The padding is a choice of the
    proof: nothing that is written back depends on it (`lookup_congr`). -/
def idsPadded (c : Dev nD) (t : Fin cfg0.N) : Vec F S8192x128 .i32 :=
  win0_1.fill (grid0.coords t) (fun _ => (0#32 : BitVec 32)) (iblk m c 1 t)

/-- The proof data of the pipeline on core `c`: the arrays as the region finds them; after point `t` the row's
    buffer holds the row, the ids' buffer the padded block, the result's the lookup of the padded block in the row;
    the invariant is the rest of the core, untouched; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => idsPadded m c t
    | ⟨2, _⟩ => k0_pay1 (iblk m c 0 t) (idsPadded m c t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_row (c : Dev nD) (t : Fin cfg0.N) : (dats m 0 c).after 0 t = iblk m c 0 t := by dsimp only [dats]
theorem after_ids (c : Dev nD) (t : Fin cfg0.N) : (dats m 0 c).after 1 t = idsPadded m c t := by dsimp only [dats]
theorem after_out (c : Dev nD) (t : Fin cfg0.N) :
    (dats m 0 c).after 2 t = k0_pay1 (iblk m c 0 t) (idsPadded m c t) := by dsimp only [dats]

/-- The row's one buffer holds the row at both points (fetched at the first, left in place at the second). -/
theorem before_row (c : Dev nD) (t : Fin cfg0.N) (d) : (dats m 0 c).before 0 t d = iblk m c 0 t :=
  before0_0_of m (dats m 0 c) (arrays_eq m c 0) (after_row m c) t d

/-- The ids' buffer is fetched at every point: the rows inside the array hold the block, the others whatever the
    buffer held (`d`). -/
theorem before_ids (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [arrays_eq]

/-- The result's buffer holds anything: it is written back after every point. -/
theorem before_out (c : Dev nD) (t : Fin cfg0.N) (d) : (dats m 0 c).before 2 t d = d := by
  refine (dats m 0 c).before_out_reset 2 rfl t ?_ d
  rcases fin_N0 t with rfl | rfl
  · exact .inl rfl
  · exact .inr ⟨by decide, flush0_2 _⟩

/-! ## The body obligation, the run, the frame -/

/-- On the rows that are written back, the lookup does not see what fills the overhanging rows of the ids' buffer
    (the ids' window and the result's are cut alike: the same index map and block). -/
theorem lookup_cut (row : Vec F S1x128 .f32) (c : Dev nD) (t : Fin cfg0.N) (d : S8192x128.Idx → BitVec 32) :
    win0_2.cut (grid0.coords t) (k0_pay1 row (win0_1.fill (grid0.coords t) d (iblk m c 1 t)))
      = win0_2.cut (grid0.coords t) (k0_pay1 row (idsPadded m c t)) := by
  funext j
  refine lookup_congr row _ _ _ ?_
  unfold idsPadded
  exact (win0_1.fill_xinj (grid0.coords t) d (iblk m c 1 t) j).trans
    (win0_1.fill_xinj (grid0.coords t) _ (iblk m c 1 t) j).symm

/-- At every point: the row's buffer holds the row, the ids' buffer its block inside the array and anything past
    it, the result's anything; the body leaves the first two alone and the result's at the lookup — which on the
    rows inside the array is the lookup of the padded block, all the two cut windows are asked for. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_row m c t d0, before_ids m c t d1, before_out m c t d2]
  iapply (lookup_triple (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (iblk m c 0 t) (win0_1.fill (grid0.coords t) d1 (iblk m c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · rw [after_row]; iexact H0
  isplitl [H1]
  · iexists d1
    rw [after_ids]; unfold idsPadded; rw [Window.cut_fill]
    iexact H1
  · iexists k0_pay1 (iblk m c 0 t) (win0_1.fill (grid0.coords t) d1 (iblk m c 1 t))
    rw [after_out, win0_2.fill_congr_cut (grid0.coords t) (lookup_cut m (iblk m c 0 t) c t d1)]
    iexact H2

set_option backward.isDefEq.respectTransparency.types false in
/-- Every weakly fair execution of @main terminates without a fault; every array of the pipeline ends at what the
    write-backs made of it, every other buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays_eq m) (hΦ := fun _ _ => rfl)

/-- The program runs to the end, faults nowhere, and its ten argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (arrays_eq m) (run_main m ρ)

end Cert.Kernel.Lookup

end
-- ==== Proof.LookupIdeal.lean ====
/-
  One grid point of the table lookup, and the program's run around it (stated for any float instance).

  @main first computes, on the host, a table of 128 values (50 cluster probabilities, then zeros) and lays the
  2,000,000 cluster ids out as a 15625 × 128 array. The pallas_call walks that array in two blocks of 8192 rows.
  At a point it holds the table as a row [1, 128] and a block of ids [8192, 128], and stores at lane (p, q) the
  row's entry numbered by the low seven bits of the id at (p, q).

  The second block overhangs the array by 759 rows. Its fetch brings in the 7433 rows that exist and leaves the
  rest of the staging buffer at arbitrary words; the body runs on all 8192 rows; the write-back writes the first
  7433 rows of the result and nothing past the array. So the proof never says what the overhanging rows hold. What
  makes that harmless is `lookup_congr`: lane (p, q) of the stored block depends on the ids block through the
  word at (p, q) alone, so the rows that are written back are the same whatever the others hold (`lookup_cut`).

  The run (`run_main`): every weakly fair execution terminates, nothing faults, each array of the pipeline ends
  at what the write-backs made of it, every other buffer as the host lines after the call leave it; and the ten
  argument arrays are unchanged (`frame`).
-/
import proofs.«422023_j26886495273500_3_alg».proof.Proof.Gen.KernelIdeal.Frame
import proofs.«422023_j26886495273500_3_alg».proof.Proof.Gen.KernelIdeal.Skeleton
import Idealize.ShloMosaic.Lib.Pipeline.Value
import Idealize.ShloMosaic.Lib.Pipeline.FrameBody
import Idealize.ShloMosaic.Lib.Pipeline.FrameSuffix
import Idealize.ShloMosaic.Lib.Tactic

set_option maxRecDepth 16384

noncomputable section

namespace Cert.KernelIdeal.Lookup

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The stored value, lane by lane -/

/-- The word a lane gathers with: the id's low seven bits. (The kernel also spells out the wrap of a negative
    index, "add 128 if below zero"; on a masked word that test never fires, but nothing here needs to know.) -/
def laneWord (w : BitVec 32) : BitVec 32 :=
  Scalar.select (IntOp.cmpi .slt (IntOp.andi w 127#32) 0#32) (IntOp.addi (IntOp.andi w 127#32) 128#32) (IntOp.andi w 127#32)

/-- The value one grid point stores: the table row, repeated down the 8192 rows, gathered along the lanes by each
    lane's own word. The casts of the ids block to rank 3 and back, and the row's casts to its own shape, are
    identities. -/
theorem lookup_eq (row : Vec F S1x128 .f32) (ids : Vec F S8192x128 .i32) :
    k0_pay1 row ids = dynamicGather 1 (broadcastTo S8192x128 row broadcasts_S1x128_S8192x128)
      (fun j => laneWord (ids j)) := by
  unfold k0_pay1
  simp only [shapeCast_self, shapeCast_shapeCast]
  rfl

/-- Lane `j` of the stored value depends on the ids block through its word at `j` alone. -/
theorem lookup_congr (row : Vec F S1x128 .f32) (X Y : Vec F S8192x128 .i32) (j : S8192x128.Idx) (h : X j = Y j) :
    k0_pay1 row X j = k0_pay1 row Y j := by
  rw [lookup_eq, lookup_eq]
  unfold dynamicGather
  simp only [h]

/-! ## One grid point's body -/

/-- Both the loads and the store go through the whole buffer: the rectangle at offset zero of the buffer's own size. -/
theorem zeroOffsets : (![0, 0] : Fin 2 → Nat) = fun _ => 0 := funext fun a => by fin_cases a <;> rfl

/-- A buffer into which ONE store through its whole rectangle was made reads back as the stored value, whatever it
    held before (stated over any shape: at a literal shape of thousands of rows the membership of an index in the
    rectangle is expensive to elaborate). -/
theorem read_after_whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h]

/-- The body on whole staging memrefs: it reads the row and the ids block, leaves both as they were, and
    overwrites the result's buffer, whatever it held, with the looked-up block. -/
theorem lookup_triple (c : Dev nD) (E : Set ℕ) (i : grid0.Coords)
    (a1 : Memref sig .tc .vmem S1x128 .f32) (h1 : a1.IsWhole) (a2 : Memref sig .tc .vmem S8192x128 .i32) (h2 : a2.IsWhole)
    (a3 : Memref sig .tc .vmem S8192x128 .f32) (h3 : a3.IsWhole)
    (row : Vec F S1x128 .f32) (ids : Vec F S8192x128 .i32) (K : PUnit → sProp 𝕄) :
    iprop(owns (c : Thread nD τ) a1 fullShare row ∗ owns (c : Thread nD τ) a2 fullShare ids
        ∗ (∃ old, owns (c : Thread nD τ) a3 fullShare old)
        ∗ (iprop(owns (c : Thread nD τ) a1 fullShare row ∗ owns (c : Thread nD τ) a2 fullShare ids
              ∗ owns (c : Thread nD τ) a3 fullShare (k0_pay1 row ids)) -∗ K ⟨⟩))
      ⊢ wp frame (wpE (defs₀ (F := F)) Variants.none c none) E (cc0__gather_kernel i a1 h1 a2 h2 a3 h3) K := by
  simp only [cc0__gather_kernel_eq_skeleton]; unfold cc0__gather_kernel_skel
  unfold owns
  iintro ⟨⟨%f1, %e1, H1⟩, ⟨%f2, %e2, H2⟩, ⟨%old, %f3, -, H3⟩, Hk⟩
  subst e1 e2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  -- the one store covers the buffer; the two loads read the whole buffers
  rw [read_after_whole_store _ _ zeroOffsets]
  simp only [View.readAt_eq_ld, View.ld_unit_zero (S := S1x128) zeroOffsets, View.ld_unit_zero (S := S8192x128) zeroOffsets]

variable (m : (ℓ : Loc nD τ sig) → Buf (Elt F) ℓ) (ρ : Dev nD → PrngReg)

/-! ## What the staging buffers hold between points -/

/-- The ids block of point `t`, padded: the block's rows inside the array (all 8192 at the first point, the
    array's last 7433 at the second) with the overhanging rows at the zero word. The padding is a choice of the
    proof: nothing that is written back depends on it (`lookup_congr`). -/
def idsPadded (c : Dev nD) (t : Fin cfg0.N) : Vec F S8192x128 .i32 :=
  win0_1.fill (grid0.coords t) (fun _ => (0#32 : BitVec 32)) (iblk m c 1 t)

/-- The proof data of the pipeline on core `c`: the arrays as the region finds them; after point `t` the row's
    buffer holds the row, the ids' buffer the padded block, the result's the lookup of the padded block in the row;
    the invariant is the rest of the core, untouched; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => idsPadded m c t
    | ⟨2, _⟩ => k0_pay1 (iblk m c 0 t) (idsPadded m c t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem after_row (c : Dev nD) (t : Fin cfg0.N) : (dats m 0 c).after 0 t = iblk m c 0 t := by dsimp only [dats]
theorem after_ids (c : Dev nD) (t : Fin cfg0.N) : (dats m 0 c).after 1 t = idsPadded m c t := by dsimp only [dats]
theorem after_out (c : Dev nD) (t : Fin cfg0.N) :
    (dats m 0 c).after 2 t = k0_pay1 (iblk m c 0 t) (idsPadded m c t) := by dsimp only [dats]

/-- The row's one buffer holds the row at both points (fetched at the first, left in place at the second). -/
theorem before_row (c : Dev nD) (t : Fin cfg0.N) (d) : (dats m 0 c).before 0 t d = iblk m c 0 t :=
  before0_0_of m (dats m 0 c) (arrays_eq m c 0) (after_row m c) t d

/-- The ids' buffer is fetched at every point: the rows inside the array hold the block, the others whatever the
    buffer held (`d`). -/
theorem before_ids (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [arrays_eq]

/-- The result's buffer holds anything: it is written back after every point. -/
theorem before_out (c : Dev nD) (t : Fin cfg0.N) (d) : (dats m 0 c).before 2 t d = d := by
  refine (dats m 0 c).before_out_reset 2 rfl t ?_ d
  rcases fin_N0 t with rfl | rfl
  · exact .inl rfl
  · exact .inr ⟨by decide, flush0_2 _⟩

/-! ## The body obligation, the run, the frame -/

/-- On the rows that are written back, the lookup does not see what fills the overhanging rows of the ids' buffer
    (the ids' window and the result's are cut alike: the same index map and block). -/
theorem lookup_cut (row : Vec F S1x128 .f32) (c : Dev nD) (t : Fin cfg0.N) (d : S8192x128.Idx → BitVec 32) :
    win0_2.cut (grid0.coords t) (k0_pay1 row (win0_1.fill (grid0.coords t) d (iblk m c 1 t)))
      = win0_2.cut (grid0.coords t) (k0_pay1 row (idsPadded m c t)) := by
  funext j
  refine lookup_congr row _ _ _ ?_
  unfold idsPadded
  exact (win0_1.fill_xinj (grid0.coords t) d (iblk m c 1 t) j).trans
    (win0_1.fill_xinj (grid0.coords t) _ (iblk m c 1 t) j).symm

/-- At every point: the row's buffer holds the row, the ids' buffer its block inside the array and anything past
    it, the result's anything; the body leaves the first two alone and the result's at the lookup — which on the
    rows inside the array is the lookup of the padded block, all the two cut windows are asked for. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_row m c t d0, before_ids m c t d1, before_out m c t d2]
  iapply (lookup_triple (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (iblk m c 0 t) (win0_1.fill (grid0.coords t) d1 (iblk m c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · rw [after_row]; iexact H0
  isplitl [H1]
  · iexists d1
    rw [after_ids]; unfold idsPadded; rw [Window.cut_fill]
    iexact H1
  · iexists k0_pay1 (iblk m c 0 t) (win0_1.fill (grid0.coords t) d1 (iblk m c 1 t))
    rw [after_out, win0_2.fill_congr_cut (grid0.coords t) (lookup_cut m (iblk m c 0 t) c t d1)]
    iexact H2

set_option backward.isDefEq.respectTransparency.types false in
/-- Every weakly fair execution of @main terminates without a fault; every array of the pipeline ends at what the
    write-backs made of it, every other buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays_eq m) (hΦ := fun _ _ => rfl)

/-- The program runs to the end, faults nowhere, and its ten argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (arrays_eq m) (run_main m ρ)

end Cert.KernelIdeal.Lookup

end
-- ==== Proof.LookupValue.lean ====
/-
  What the idealized kernel program's result holds (stated for any float instance).

  A lane of the block a grid point stores is the table row's entry numbered by the lane's masked id
  (`lookup_apply`), so the block a point writes back is that point's block of ONE function of the two arrays the
  call reads: `wholeLookup table ids`, the table entry numbered by each id of the 15625 × 128 array
  (`flushed_eq`). The two blocks, rows 0‥8191 and 8192‥15624, cover the array (`covered`), so after the two
  write-backs the result array is that function (`final_out`); the host line after the call reshapes it to the
  column [2000000, 1] (`result_eq`), and `run_value` is the run with that result named.
-/
import proofs.«422023_j26886495273500_3_alg».proof.Proof.LookupIdeal
import Idealize.ShloMosaic.Lib.ValueIdx
import Idealize.ShloMosaic.Lib.Pipeline.Value
import Idealize.ShloMosaic.Lib.StableHlo.Run

set_option maxRecDepth 16384

noncomputable section

namespace Cert.KernelIdeal.Lookup

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-! ## A stored lane is a table entry -/

/-- Lane `j` of the block a point stores is the row's entry numbered by the lane's word (taken modulo the 128
    lanes; the word is already below 128). -/
theorem lookup_apply (row : Vec F S1x128 .f32) (X : Vec F S8192x128 .i32) (j : S8192x128.Idx) :
    k0_pay1 row X j = row (ix2 (0 : Fin 1) ⟨(laneWord (X j)).toNat % 128, Nat.mod_lt _ (by decide)⟩) := by
  rw [lookup_eq]
  unfold dynamicGather
  refine broadcastTo_apply row broadcasts_S1x128_S8192x128 _ _ (fun a => ?_)
  match a with
  | ⟨0, _⟩ => rfl
  | ⟨1, _⟩ => rfl

/-- The lookup over the whole 15625 × 128 array of ids: what the result array is shown to hold. -/
def wholeLookup (row : Vec F S1x128 .f32) (ids : Vec F S15625x128 .i32) : Vec F S15625x128 .f32 :=
  fun i => row (ix2 (0 : Fin 1) ⟨(laneWord (ids i)).toNat % 128, Nat.mod_lt _ (by decide)⟩)

variable (m : (ℓ : Loc nD τ sig) → Buf (Elt F) ℓ) (ρ : Dev nD → PrngReg)

/-! ## The blocks, read off the arrays -/

/-- The table's window has one block, the whole row: at either point the staged row is the table array. -/
theorem row_at (c : Dev nD) (t : Fin cfg0.N) : iblk m c 0 t = V m c main_v37 := by
  funext y
  show V m c main_v37 (((cfg0.win 0).blk t).view.emb y) = V m c main_v37 y
  refine congrArg _ (funext fun a => Fin.ext ?_)
  have h0 : ∀ t : Fin cfg0.N, ∀ a : Fin 2, win0_0.index t a = 0 :=
    (by decide +kernel : ∀ t : Fin grid0.N, ∀ a : Fin 2, win0_0.index t a = 0)
  show win0_0.index t a * win0_0.size a + 1 * (y a).val = (y a).val
  rw [h0 t a]; omega

/-- A lane of what point `t` leaves, on a row inside the array, is the whole-array lookup at that row of the ids
    array (`j` a row and lane of the ids' cut block). -/
theorem flushed_lane (c : Dev nD) (t : Fin cfg0.N) (j : (win0_1.xblock (grid0.coords t)).Idx) :
    k0_pay1 (iblk m c 0 t) (idsPadded m c t) (win0_1.xinj (grid0.coords t) j)
      = wholeLookup (V m c main_v37) (V m c main_v39) (((cfg0.win 1).blk t).view.emb j) := by
  rw [lookup_apply, row_at]
  unfold wholeLookup idsPadded
  rw [win0_1.fill_xinj]
  rfl

/-! ## The result array after the run -/

/-- What point `t` writes back is its block of the whole-array lookup (the ids' window and the result's have one
    index map and one block size, so a row of one cut block is the same row of the other). -/
theorem flushed_eq (c : Dev nD) (t : Fin cfg0.N) :
    (dats m 0 c).flushed 2 t
      = ((cfg0.win 2).blk t).view.read (Elt F) (wholeLookup (V m c main_v37) (V m c main_v39)) := by
  unfold Dat.flushed
  rw [after_out]
  funext j
  exact flushed_lane m c t j

/-- The two blocks' rows, 0‥8191 and 8192‥15624, are all the rows of the array. -/
theorem covered (i : S15625x128.Idx) :
    ∃ t : Fin cfg0.N, (cfg0.win 2).flush t = true ∧ i ∈ ((cfg0.win 2).blk t).view.set := by
  have hr : (i 0 : Nat) < 15625 := (i 0).isLt
  have hl : (i 1 : Nat) < 128 := (i 1).isLt
  by_cases h : (i 0 : Nat) < 8192
  · refine ⟨t0_0, flush0_2 _, ?_⟩
    show i ∈ ((View.whole main_v40).slice (win0_2.rect t0_0)).set
    rw [View.set_slice_whole, Rect.mem_set_unit]
    intro a
    match a with
    | ⟨0, _⟩ =>
      show win0_2.index t0_0 0 * 8192 ≤ (i 0 : Nat) ∧ (i 0 : Nat) < win0_2.index t0_0 0 * 8192 + win0_2.xsize (grid0.coords t0_0) 0
      rw [show win0_2.index t0_0 0 = 0 from by decide +kernel, show win0_2.xsize (grid0.coords t0_0) 0 = 8192 from by decide +kernel]
      omega
    | ⟨1, _⟩ =>
      show win0_2.index t0_0 1 * 128 ≤ (i 1 : Nat) ∧ (i 1 : Nat) < win0_2.index t0_0 1 * 128 + win0_2.xsize (grid0.coords t0_0) 1
      rw [show win0_2.index t0_0 1 = 0 from by decide +kernel, show win0_2.xsize (grid0.coords t0_0) 1 = 128 from by decide +kernel]
      omega
  · refine ⟨t0_1, flush0_2 _, ?_⟩
    show i ∈ ((View.whole main_v40).slice (win0_2.rect t0_1)).set
    rw [View.set_slice_whole, Rect.mem_set_unit]
    intro a
    match a with
    | ⟨0, _⟩ =>
      show win0_2.index t0_1 0 * 8192 ≤ (i 0 : Nat) ∧ (i 0 : Nat) < win0_2.index t0_1 0 * 8192 + win0_2.xsize (grid0.coords t0_1) 0
      rw [show win0_2.index t0_1 0 = 1 from by decide +kernel, show win0_2.xsize (grid0.coords t0_1) 0 = 7433 from by decide +kernel]
      omega
    | ⟨1, _⟩ =>
      show win0_2.index t0_1 1 * 128 ≤ (i 1 : Nat) ∧ (i 1 : Nat) < win0_2.index t0_1 1 * 128 + win0_2.xsize (grid0.coords t0_1) 1
      rw [show win0_2.index t0_1 1 = 0 from by decide +kernel, show win0_2.xsize (grid0.coords t0_1) 1 = 128 from by decide +kernel]
      omega

/-- After the two write-backs the result array holds the lookup of every id. -/
theorem final_out (c : Dev nD) :
    (dats m 0 c).arrAt 2 cfg0.N = wholeLookup (V m c main_v37) (V m c main_v39) :=
  (dats m 0 c).arrAt_eq_of_cover 2 _ (fun t _ => flushed_eq m c t) covered

/-! ## The result, and the run that names it -/

/-- The host line after the call reshapes the result array to [2000000, 1]. -/
theorem result_eq (c : Dev nD) :
    Pipeline.afterTail₀ cfgs (dats m) 0 (V0 m) [hostOps1] c main_v41
      = shapeCast S2000000x1 (wholeLookup (V m c main_v37) (V m c main_v39)) shapeCasts_S15625x128_S2000000x1 := by
  unfold Pipeline.afterTail₀
  show StableHlo.after hostOps1 _ (Proc.devRef .tc main_v41) = _
  after_results
  have e : Pipeline.withArrays (cfgs 0).spec c (V0 m c) (fun w => (dats m 0 c).arrAt w (cfgs 0).N)
      (Proc.devRef .tc main_v40) = wholeLookup (V m c main_v37) (V m c main_v39) :=
    (Pipeline.withArrays_arr spec0 launch0.win.arr_inj c (V0 m c) (fun w => (dats m 0 c).arrAt w cfg0.N) 2).trans
      (final_out m c)
  rw [e]
  rfl

/-- The idealized kernel program's run with its result named: every weakly fair execution terminates without a
    fault, the result buffer holds the lookup of every id, reshaped to a column, and the ten arguments are as they
    were. -/
theorem run_value : θ_run defs (onTc (τ := τ) (main (F := F))) ⟨m, fun _ => 0, ρ⟩ (fun r => ∀ c : Dev nD,
      r.2.mem ((c.tc : Thread nD τ).loc main_v41)
        = shapeCast S2000000x1 (wholeLookup (V m c main_v37) (V m c main_v39)) shapeCasts_S15625x128_S2000000x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v41 (Pipeline.mem_restRefs_of main_v41 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Lookup

end
-- ==== Proof.HostSide.lean ====
/-
  The two arrays the pallas_call reads, as the host lines before it leave them (stated for any float instance).

  The ids array is the argument reshaped twice. The table is 128 zeros with the [50, 1] column of probabilities,
  flattened, written over the entries from 0 on, then given a leading axis of size one. The column of
  probabilities is computed by the same host lines as in the reference program — a three-layer network on the
  embeddings, a noise term from the uniforms, a logistic — and is carried here as the reference's own stage of the
  arguments, never opened.
-/
import proofs.«422023_j26886495273500_3_alg».proof.Proof.Gen.KernelIdeal.Frame
import proofs.«422023_j26886495273500_3_alg».proof.Proof.Gen.ReferenceIdeal.Read
import Idealize.ShloMosaic.Lib.ValueIdx
import Idealize.ShloMosaic.Lib.Pipeline.Value
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-! ## What the host lines before the call leave in the two arrays the call reads -/

/-- The ids as the call finds them: the [2000000, 1] argument flattened, then laid out in rows of 128. -/
theorem ids_array (c : Dev nD) :
    (V m c main_v39 : S15625x128.Idx → Elt F .i32)
      = shapeCast S15625x128 (shapeCast S2000000 (m ((c : Thread nD τ).loc main_arg1)) shapeCasts_S2000000x1_S2000000)
          shapeCasts_S2000000_S15625x128 := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 4000000 in
/-- The table as the call finds it: 128 zeros with the 50 probabilities (the [50, 1] column flattened) written
    over the entries from index 0 on, as a row [1, 128]. -/
theorem table_array (c : Dev nD) :
    (V m c main_v37 : S1x128.Idx → Elt F .f32)
      = shapeCast S1x128 (Host.scatter scatter_S128_S1_S50_0_n_0_0 (fun _ b => b)
          (broadcastInDim S128 ![] bcast_S_S128 (constant (F := F) S_ .f32 0x00000000#32))
          (broadcastInDim S1 ![] bcast_S_S1 (constantI S_ 32 0#32))
          (shapeCast S50 (V m c main_v32 : S50x1.Idx → Elt F .f32) shapeCasts_S50x1_S50)) shapeCasts_S128_S1x128 := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl

set_option maxHeartbeats 4000000 in
/-- The probabilities are computed by the same host lines in both programs: the kernel program's column is the
    reference's stage of the same arguments. -/
theorem probs_array (c : Dev nD) :
    (V m c main_v32 : S50x1.Idx → Elt F .f32)
      = Cert.ReferenceIdeal.Read.val_main_v32 (F := F) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl

end Cert.KernelIdeal.HostSide

end
-- ==== Proof.LibScatterWindow.lean ====
/-
  General lemma: jnp's `x.at[s : s + K].set(u)` on a vector, as StableHLO prints it — a scatter with ONE start index and a
  window of K updates: update_window_dims [0], no inserted axis, scatter_dims_to_operand_dims [0], the start index a vector
  [1] (index_vector_dim 0), the body returning the update. When the window fits in the operand, the result at k is the
  update numbered k − s for k in [s, s + K), and the operand's entry elsewhere.
  The scatter is a left fold of single overwrites over the update indices; the places they land on are distinct, so the
  fold reads at a place as its one overwrite there, and elsewhere as what it started from.
-/
import Idealize.ShloMosaic.Lib.ValueIdx

open Idealize.ShloMosaic Idealize.ShloMosaic.ValueIdx

namespace Cert.Lib.ScatterWindow

variable {α : Type}

/-! ## A fold of overwrites at distinct places

A step `step r n` overwrites the one place `e n` with `u n` and leaves every other place of `r` alone. -/

section Fold
variable {ι κ : Type}

/-- A place no overwrite lands on keeps what it held. -/
theorem foldl_miss (e : κ → ι) (step : (ι → α) → κ → ι → α) (hmiss : ∀ r n i, i ≠ e n → step r n i = r i) :
    ∀ (l : List κ) (x : ι → α) (i : ι), (∀ n ∈ l, e n ≠ i) → l.foldl step x i = x i
  | [], _, _, _ => rfl
  | a :: l, x, i, h => by
    rw [List.foldl_cons, foldl_miss e step hmiss l _ i (fun n hn => h n (List.mem_cons_of_mem _ hn)),
      hmiss _ _ _ (fun hi => h a List.mem_cons_self hi.symm)]

/-- The place of an overwrite of the list, when the places are distinct and no index repeats, holds that overwrite's
    value: no later one lands there. -/
theorem foldl_hit (e : κ → ι) (u : κ → α) (step : (ι → α) → κ → ι → α) (hhit : ∀ r n, step r n (e n) = u n)
    (hmiss : ∀ r n i, i ≠ e n → step r n i = r i) (he : Function.Injective e) :
    ∀ (l : List κ) (x : ι → α) (n : κ), n ∈ l → l.Nodup → l.foldl step x (e n) = u n
  | [], _, _, hn, _ => absurd hn List.not_mem_nil
  | a :: l, x, n, hn, hnd => by
    rw [List.foldl_cons]
    rcases List.mem_cons.mp hn with hna | hn'
    · subst hna
      rw [foldl_miss e step hmiss l _ (e n) (fun k hk hek => (List.nodup_cons.mp hnd).1 (he hek ▸ hk)), hhit]
    · exact foldl_hit e u step hhit hmiss he l _ n hn' (List.nodup_cons.mp hnd).2

end Fold

/-! ## The one-window scatter -/

section Window
variable {N K w : Nat}

/-- The dimension numbers of a window of `K` updates written into a vector of `N` entries at one start index. -/
abbrev windowDims (wf : ScatterDims.WF ⟨1, ![N]⟩ ⟨1, ![1]⟩ ⟨1, ![K]⟩ [0] [] [0] 0) :
    ScatterDims ⟨1, ![N]⟩ ⟨1, ![1]⟩ ⟨1, ![K]⟩ where
  updateWindowDims := [0]
  insertedWindowDims := []
  scatterDimsToOperandDims := [0]
  indexVectorDim := 0
  wf := wf

/-- Every update's window starts at the one start index. -/
theorem start_eq (wf : ScatterDims.WF ⟨1, ![N]⟩ ⟨1, ![1]⟩ ⟨1, ![K]⟩ [0] [] [0] 0) (idx : IVec ⟨1, ![1]⟩ w) (s : Nat)
    (hs : (idx (ix1 (0 : Fin 1))).toInt = (s : Int)) (j : (⟨1, ![K]⟩ : Shape).Idx) :
    (windowDims wf).start j idx 0 = (s : Int) := by
  unfold ScatterDims.start
  rw [dif_pos (show (0 : Fin 1) ∈ (windowDims wf).scatterDimsToOperandDims from List.mem_singleton.mpr rfl)]
  have hsi : (windowDims wf).siIdx j ⟨List.idxOf (0 : Fin 1) (windowDims wf).scatterDimsToOperandDims,
      List.idxOf_lt_length_iff.2 (List.mem_singleton.mpr rfl)⟩ = ix1 (0 : Fin 1) := by
    funext b; refine Fin.ext ?_
    match b with
    | ⟨0, _⟩ => rfl
  rw [hsi]; exact hs

/-- Update `j` sits at coordinate `j` of the window. -/
theorem window_eq (wf : ScatterDims.WF ⟨1, ![N]⟩ ⟨1, ![1]⟩ ⟨1, ![K]⟩ [0] [] [0] 0) (j : (⟨1, ![K]⟩ : Shape).Idx) :
    (windowDims wf).window j 0 = (j 0).val := by
  unfold ScatterDims.window
  have h0 : (0 : Fin 1) ∈ (windowDims wf).sKept := by
    show (0 : Fin 1) ∈ (List.finRange 1).filter (· ∉ ([] : List (Fin 1)))
    decide
  rw [dif_pos h0]
  rfl

/-- Update `j` lands on entry `s + j` of the operand (the window fits, so no update is dropped). -/
theorem resultIdx_eq (wf : ScatterDims.WF ⟨1, ![N]⟩ ⟨1, ![1]⟩ ⟨1, ![K]⟩ [0] [] [0] 0) (idx : IVec ⟨1, ![1]⟩ w) (s : Nat)
    (hs : (idx (ix1 (0 : Fin 1))).toInt = (s : Int)) (hfit : s + K ≤ N) (j : (⟨1, ![K]⟩ : Shape).Idx) :
    (windowDims wf).resultIdx? j idx
      = some (ix1 ⟨s + (j 0).val, by have hj : (j 0).val < K := (j 0).isLt; omega⟩) := by
  have hj : (j 0).val < K := (j 0).isLt
  unfold ScatterDims.resultIdx?
  rw [dif_pos (fun a => by
    obtain rfl : a = 0 := Subsingleton.elim _ _
    rw [start_eq wf idx s hs j, window_eq wf j]
    exact ⟨by omega, by show (s : Int) + ((j 0).val : Int) < (N : Int); omega⟩)]
  refine congrArg some (funext fun a => Fin.ext ?_)
  obtain rfl : a = 0 := Subsingleton.elim _ _
  show ((windowDims wf).start j idx 0 + (windowDims wf).window j 0).toNat = s + (j 0).val
  rw [start_eq wf idx s hs j, window_eq wf j]; omega

/-- The entry the `n`-th update (in row-major order) lands on. -/
def place (s : Nat) (hfit : s + K ≤ N) (n : Fin (⟨1, ![K]⟩ : Shape).numel) : (⟨1, ![N]⟩ : Shape).Idx :=
  ix1 ⟨s + ((⟨1, ![K]⟩ : Shape).rowMajor.symm n 0).val, by
    have hj : ((⟨1, ![K]⟩ : Shape).rowMajor.symm n 0).val < K := ((⟨1, ![K]⟩ : Shape).rowMajor.symm n 0).isLt
    omega⟩

theorem place_injective (s : Nat) (hfit : s + K ≤ N) : Function.Injective (place (N := N) (K := K) s hfit) := fun a b h => by
  have h0 : s + ((⟨1, ![K]⟩ : Shape).rowMajor.symm a 0).val = s + ((⟨1, ![K]⟩ : Shape).rowMajor.symm b 0).val :=
    congrArg Fin.val (congrFun h 0)
  have : (⟨1, ![K]⟩ : Shape).rowMajor.symm a = (⟨1, ![K]⟩ : Shape).rowMajor.symm b := by
    funext d; match d with | ⟨0, _⟩ => exact Fin.ext (Nat.add_left_cancel h0)
  exact (⟨1, ![K]⟩ : Shape).rowMajor.symm.injective this

/-- THE WINDOW SCATTER READ AT `k`: inside the window the update numbered `k − s`, outside it the operand. -/
theorem scatter_window_apply (wf : ScatterDims.WF ⟨1, ![N]⟩ ⟨1, ![1]⟩ ⟨1, ![K]⟩ [0] [] [0] 0) (idx : IVec ⟨1, ![1]⟩ w)
    (s : Nat) (hs : (idx (ix1 (0 : Fin 1))).toInt = (s : Int)) (hfit : s + K ≤ N)
    (x : (⟨1, ![N]⟩ : Shape).Idx → α) (upd : (⟨1, ![K]⟩ : Shape).Idx → α) (k : Fin N) :
    Host.scatter (windowDims wf) (fun _ b => b) x idx upd (ix1 k)
      = if h : s ≤ k.val ∧ k.val < s + K then upd (ix1 ⟨k.val - s, by omega⟩) else x (ix1 k) := by
  unfold Host.scatter
  -- each step of the fold overwrites the place its update lands on (`place`) with the update, and nothing else
  by_cases h : s ≤ k.val ∧ k.val < s + K
  · rw [dif_pos h]
    have hn : place (N := N) (K := K) s hfit ((⟨1, ![K]⟩ : Shape).rowMajor (ix1 ⟨k.val - s, by omega⟩)) = ix1 k := by
      unfold place
      refine congrArg ix1 (Fin.ext ?_)
      show s + ((⟨1, ![K]⟩ : Shape).rowMajor.symm ((⟨1, ![K]⟩ : Shape).rowMajor (ix1 ⟨k.val - s, by omega⟩)) 0).val = k.val
      rw [Equiv.symm_apply_apply]
      show s + (k.val - s) = k.val
      omega
    rw [← hn]
    refine (foldl_hit (place (N := N) (K := K) s hfit) (fun n => upd ((⟨1, ![K]⟩ : Shape).rowMajor.symm n)) _ ?_ ?_
      (place_injective s hfit) _ x _ (List.mem_finRange _) (List.nodup_finRange _)).trans ?_
    · intro r n
      try dsimp only
      rw [resultIdx_eq wf idx s hs hfit]
      exact if_pos rfl
    · intro r n i hi
      try dsimp only
      rw [resultIdx_eq wf idx s hs hfit]
      exact if_neg hi
    · try dsimp only
      rw [Equiv.symm_apply_apply]
  · rw [dif_neg h]
    refine foldl_miss (place (N := N) (K := K) s hfit) _ ?_ _ x _ (fun n _ hn => h ?_)
    · intro r n i hi
      try dsimp only
      rw [resultIdx_eq wf idx s hs hfit]
      exact if_neg hi
    · have hj : ((⟨1, ![K]⟩ : Shape).rowMajor.symm n 0).val < K := ((⟨1, ![K]⟩ : Shape).rowMajor.symm n 0).isLt
      have hk : s + ((⟨1, ![K]⟩ : Shape).rowMajor.symm n 0).val = k.val := congrArg Fin.val (congrFun hn 0)
      omega

end Window

end Cert.Lib.ScatterWindow
-- ==== Proof.KernelEntries.lean ====
/-
  The kernel program's result, entry by entry, when the ids are in range (stated for any float instance).

  Entry `n` of the result is the whole-array lookup at row n / 128, lane n % 128: the table entry numbered by the
  low seven bits of the id there, which is id number `n` of the argument. For an id below 50 the low seven bits are
  the id, and that table entry is the probability at that row (the table holds the 50 probabilities, then zeros).
-/
import proofs.«422023_j26886495273500_3_alg».proof.Proof.HostSide
import proofs.«422023_j26886495273500_3_alg».proof.Proof.LookupValue
import proofs.«422023_j26886495273500_3_alg».proof.Proof.LibScatterWindow
import Idealize.ShloMosaic.Lib.ValueIdx
import Idealize.ShloMosaic.Lib.Pipeline.Value

set_option maxRecDepth 16384

noncomputable section

namespace Cert.KernelIdeal.Entries

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

open Cert.KernelIdeal.Lookup Cert.KernelIdeal.HostSide

variable (m : (ℓ : Loc nD τ sig) → Buf (Elt F) ℓ)

/-! ## The table, the ids, and the result, entry by entry -/

/-- A word below 50 is one of fifty literals. -/
theorem word_of_lt (a : BitVec 32) (h : a.toNat < 50) : ∃ k : Fin 50, a = BitVec.ofNat 32 k.val :=
  ⟨⟨a.toNat, h⟩, BitVec.eq_of_toNat_eq (by
    rw [BitVec.toNat_ofNat]; exact (Nat.mod_eq_of_lt a.isLt).symm)⟩

/-- Each of those fifty words is its own low seven bits, and the kernel's "add 128 if negative" leaves it alone
    (checked word by word). -/
theorem laneWord_small : ∀ k : Fin 50, laneWord (BitVec.ofNat 32 k.val) = BitVec.ofNat 32 k.val := by decide

/-- The lane a lookup reads for an id below 50 is the lane numbered by the id. -/
theorem lane_of_small (a : BitVec 32) (h : a.toNat < 50) : (laneWord a).toNat % 128 = a.toNat := by
  obtain ⟨k, hk⟩ := word_of_lt a h
  rw [show laneWord a = a from by rw [hk]; exact laneWord_small k]
  omega

/-- Entry `k` of the table row, for `k` below 50, is probability `k`: the fifty probabilities were written over
    the first fifty of 128 zeros. -/
theorem table_entry (c : Dev nD) (k : Fin 50) :
    V m c main_v37 (ix2 (0 : Fin 1) (⟨k.val, by omega⟩ : Fin 128)) = V m c main_v32 (ix2 k (0 : Fin 1)) := by
  rw [table_array]
  refine (shapeCast_apply _ shapeCasts_S128_S1x128 (ix2 (0 : Fin 1) (⟨k.val, by omega⟩ : Fin 128))
    (ix1 (⟨k.val, by omega⟩ : Fin 128)) ?_).trans ?_
  · rw [Shape.rowMajor_val_one, Shape.rowMajor_val_two]
    show k.val = 0 * 128 + k.val
    omega
  refine (Cert.Lib.ScatterWindow.scatter_window_apply (N := 128) (K := 50) _ _ 0 rfl (by decide) _ _
    (⟨k.val, by omega⟩ : Fin 128)).trans ?_
  rw [dif_pos ⟨Nat.zero_le _, by show k.val < 0 + 50; omega⟩]
  refine shapeCast_apply _ shapeCasts_S50x1_S50 _ (ix2 k (0 : Fin 1)) ?_
  rw [Shape.rowMajor_val_one, Shape.rowMajor_val_two]
  show k.val * 1 + 0 = k.val - 0
  omega

/-- Entry (r, q) of the ids as the call finds them is id number 128·r + q of the argument. -/
theorem ids_entry (c : Dev nD) (r : Fin 15625) (q : Fin 128) :
    V m c main_v39 (ix2 r q)
      = m ((c : Thread nD τ).loc main_arg1) (ix2 (⟨r.val * 128 + q.val, by omega⟩ : Fin 2000000) (0 : Fin 1)) := by
  rw [ids_array]
  refine (shapeCast_apply _ shapeCasts_S2000000_S15625x128 (ix2 r q)
    (ix1 (⟨r.val * 128 + q.val, by omega⟩ : Fin 2000000)) ?_).trans ?_
  · rw [Shape.rowMajor_val_one, Shape.rowMajor_val_two]
    rfl
  refine shapeCast_apply _ shapeCasts_S2000000x1_S2000000 _
    (ix2 (⟨r.val * 128 + q.val, by omega⟩ : Fin 2000000) (0 : Fin 1)) ?_
  rw [Shape.rowMajor_val_one, Shape.rowMajor_val_two]
  show (r.val * 128 + q.val) * 1 + 0 = r.val * 128 + q.val
  omega

/-- Entry `n` of the kernel program's result is the probability at row `ids[n]`, when that id is below 50. -/
theorem kernel_entry (c : Dev nD) (n : Fin 2000000)
    (h : (m ((c : Thread nD τ).loc main_arg1) (ix2 n (0 : Fin 1))).toNat < 50) :
    shapeCast S2000000x1 (wholeLookup (V m c main_v37) (V m c main_v39)) shapeCasts_S15625x128_S2000000x1
        (ix2 n (0 : Fin 1))
      = V m c main_v32 (ix2 ⟨(m ((c : Thread nD τ).loc main_arg1) (ix2 n (0 : Fin 1))).toNat, h⟩ (0 : Fin 1)) := by
  have hn : n.val < 2000000 := n.isLt
  have hq : n.val / 128 < 15625 := by omega
  have hl : n.val % 128 < 128 := Nat.mod_lt _ (by decide)
  refine (shapeCast_apply _ shapeCasts_S15625x128_S2000000x1 (ix2 n (0 : Fin 1))
    (ix2 (⟨n.val / 128, hq⟩ : Fin 15625) (⟨n.val % 128, hl⟩ : Fin 128)) ?_).trans ?_
  · rw [Shape.rowMajor_val_two, Shape.rowMajor_val_two]
    exact (Nat.div_add_mod' n.val 128).trans (Nat.mul_one n.val).symm
  unfold wholeLookup
  have hi : V m c main_v39 (ix2 (⟨n.val / 128, hq⟩ : Fin 15625) (⟨n.val % 128, hl⟩ : Fin 128))
      = m ((c : Thread nD τ).loc main_arg1) (ix2 n (0 : Fin 1)) := by
    refine (ids_entry m c ⟨n.val / 128, hq⟩ ⟨n.val % 128, hl⟩).trans ?_
    exact congrArg (fun r : Fin 2000000 => m ((c : Thread nD τ).loc main_arg1) (ix2 r (0 : Fin 1)))
      (Fin.ext (Nat.div_add_mod' n.val 128))
  refine Eq.trans (congrArg (V m c main_v37) (congrArg (ix2 (0 : Fin 1)) (Fin.ext ?_))) (table_entry m c ⟨_, h⟩)
  show (laneWord (V m c main_v39 (ix2 (⟨n.val / 128, hq⟩ : Fin 15625) (⟨n.val % 128, hl⟩ : Fin 128)))).toNat % 128
    = (m ((c : Thread nD τ).loc main_arg1) (ix2 n (0 : Fin 1))).toNat
  rw [hi]
  exact lane_of_small _ h

end Cert.KernelIdeal.Entries

end
-- ==== Proof.LibGatherRows.lean ====
/-
  General lemma: jnp's `table[idx]` for a matrix `table : [N, D]` and a vector of row numbers, as StableHLO prints it.
  The gather takes whole rows: offset_dims [1], collapsed_slice_dims [0], start_index_map [0], slice_sizes [1, D], with the
  row numbers laid out as a column [R, 1] (index_vector_dim 1). Result entry (r, c) is the table at row `idx[r, 0]`, read as
  a signed integer and clamped into [0, N − 1], and column c.
-/
import Idealize.ShloMosaic.Lib.ValueIdx

open Idealize.ShloMosaic Idealize.ShloMosaic.ValueIdx

namespace Cert.Lib.GatherRows

variable {α : Type}

/-- The dimension numbers of a whole-row gather from `[N, D]` by a column `[R, 1]` of row numbers into `[R, D]`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section
variable {N D R w : Nat}
  (wf : GatherDims.WF ⟨2, ![N, D]⟩ ⟨2, ![R, 1]⟩ ⟨2, ![R, D]⟩ [1] [0] [] [0] [] 1 ![1, D])
  (idx : IVec ⟨2, ![R, 1]⟩ w) (r : Fin R) (c : Fin D)

/-- On the table's row axis the operand index is the clamped row number (the axis is collapsed: no offset). -/
theorem operandIdx_row :
    ((rowDims N D R wf).operandIdx (ix2 r c) idx (0 : Fin 2)).val = min (idx (ix2 r (0 : Fin 1))).toInt.toNat (N - 1) := by
  show (rowDims N D R wf).start (ix2 r c) idx 0 + (rowDims N D R wf).batchCoord (ix2 r c) 0
    + (rowDims N D R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 r c) ⟨List.idxOf (0 : Fin 2) (rowDims N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis the operand index is the result's column (the axis is not in the start index map). -/
theorem operandIdx_col :
    ((rowDims N D R wf).operandIdx (ix2 r c) idx (1 : Fin 2)).val = c.val := by
  show (rowDims N D R wf).start (ix2 r c) idx 1 + (rowDims N D R wf).batchCoord (ix2 r c) 1
    + (rowDims N D R wf).offCoord (ix2 r c) 1 = _
  have h1 : (1 : Fin 2) ∈ (rowDims N D R wf).sKept := by
    rw [GatherDims.mem_sKept]
    exact ⟨fun h => absurd (congrArg Fin.val (List.mem_singleton.mp h)) Nat.one_ne_zero, List.not_mem_nil⟩
  rw [GatherDims.batchCoord_eq_zero _ _ _ List.not_mem_nil]
  unfold GatherDims.start
  rw [dif_neg (show (1 : Fin 2) ∉ (rowDims N D R wf).startIndexMap from
    fun h => absurd (congrArg Fin.val (List.mem_singleton.mp h)) Nat.one_ne_zero)]
  unfold GatherDims.offCoord
  rw [dif_pos h1]
  simp only [Nat.zero_add, Nat.add_zero]
  rfl

end

/-- The whole-row gather read at `(r, c)`: the table at the clamped row number `idx[r, 0]` and column `c`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (c : Fin D) :
    Host.gather (rowDims N D R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ => exact operandIdx_row wf idx r c
  | ⟨1, _⟩ => exact operandIdx_col wf idx r c

end Cert.Lib.GatherRows
-- ==== Proof.RefEntries.lean ====
/-
  The reference's result, entry by entry, when the ids are in range.

  The reference first turns a negative id `a` into `a + 50` (Python's wrap-around) and then gathers row
  `clamp(a, 0, 49)` of the [50, 1] column of probabilities. For an id whose value is below 50 neither the wrap nor
  the clamp does anything: entry `n` of the result is the probability at row `ids[n]`.
-/
import proofs.«422023_j26886495273500_3_alg».proof.Proof.Gen.ReferenceIdeal.Read
import proofs.«422023_j26886495273500_3_alg».proof.Proof.LibGatherRows
import Idealize.ShloMosaic.Lib.ValueIdx
import Idealize.ShloMosaic.Lib.StableHlo.Predicate

noncomputable section

namespace Cert.ReferenceIdeal.Entries

open Cert.ReferenceIdeal Cert.ReferenceIdeal.Gen Cert.ReferenceIdeal.Read
open Idealize.ShloMosaic Idealize.ShloMosaic.ValueIdx

variable {F : FTy → Type} [FloatOps F]

/-- A word below 50 is one of fifty literals. -/
theorem word_of_lt (a : BitVec 32) (h : a.toNat < 50) : ∃ k : Fin 50, a = BitVec.ofNat 32 k.val :=
  ⟨⟨a.toNat, h⟩, BitVec.eq_of_toNat_eq (by
    rw [BitVec.toNat_ofNat]; exact (Nat.mod_eq_of_lt a.isLt).symm)⟩

/-- "If negative, add 50" leaves each of those fifty words alone (checked word by word). -/
theorem wrap_small : ∀ k : Fin 50,
    Scalar.select (IntOp.cmpi .slt (BitVec.ofNat 32 k.val) 0#32) (IntOp.addi (BitVec.ofNat 32 k.val) 50#32)
      (BitVec.ofNat 32 k.val) = BitVec.ofNat 32 k.val := by decide

/-- The row number the gather is given for entry `n` is the id itself, when the id is below 50. -/
theorem wrapped_id (x1 : (⟨S2000000x1, .i32⟩ : BufTy).Contents (Elt F)) (n : Fin 2000000)
    (h : (x1 (ix2 n (0 : Fin 1))).toNat < 50) :
    val_main_v39 (F := F) x1 (ix2 n (0 : Fin 1)) = x1 (ix2 n (0 : Fin 1)) := by
  have hi : idx_main_v33 (idx_main_v39 (ix2 n (0 : Fin 1))) = ix2 n (0 : Fin 1) := by
    funext a
    match a with
    | ⟨0, _⟩ => exact Fin.ext (Nat.div_one _)
    | ⟨1, _⟩ => rfl
  rw [val_main_v39_apply, val_main_v38_apply, val_main_v35_apply, val_main_v37_apply, val_main_v33_apply,
    val_main_v34_apply, val_main_v36_apply, val_main_c_apply, val_main_c_4_apply, hi]
  obtain ⟨k, hk⟩ := word_of_lt _ h
  rw [hk]
  exact wrap_small k

/-- Entry `n` of the reference's result is the probability at row `ids[n]`, when that id is below 50. -/
theorem ref_entry (x1 : (⟨S2000000x1, .i32⟩ : BufTy).Contents (Elt F)) (x2 : (⟨S50x32, .f32⟩ : BufTy).Contents (Elt F))
    (x3 : (⟨S32x32, .f32⟩ : BufTy).Contents (Elt F)) (x4 : (⟨S32, .f32⟩ : BufTy).Contents (Elt F))
    (x5 : (⟨S32x32, .f32⟩ : BufTy).Contents (Elt F)) (x6 : (⟨S32, .f32⟩ : BufTy).Contents (Elt F))
    (x7 : (⟨S32x1, .f32⟩ : BufTy).Contents (Elt F)) (x8 : (⟨S1, .f32⟩ : BufTy).Contents (Elt F))
    (x9 : (⟨S2x50x1, .f32⟩ : BufTy).Contents (Elt F)) (n : Fin 2000000) (h : (x1 (ix2 n (0 : Fin 1))).toNat < 50) :
    val_main_v40 (F := F) x1 x2 x3 x4 x5 x6 x7 x8 x9 (ix2 n (0 : Fin 1))
      = val_main_v32 (F := F) x2 x3 x4 x5 x6 x7 x8 x9 (ix2 ⟨(x1 (ix2 n (0 : Fin 1))).toNat, h⟩ (0 : Fin 1)) := by
  unfold val_main_v40
  refine (Cert.Lib.GatherRows.gather_rows_apply (N := 50) (D := 1) (R := 2000000) (by decide) _ _ _ n (0 : Fin 1)).trans ?_
  refine congrArg _ (congrArg (fun r : Fin 50 => ix2 r (0 : Fin 1)) (Fin.ext ?_))
  show min (val_main_v39 (F := F) x1 (ix2 n (0 : Fin 1))).toInt.toNat (50 - 1) = (x1 (ix2 n (0 : Fin 1))).toNat
  rw [wrapped_id x1 n h, StableHlo.Predicate.toInt_eq_toNat_of_lt (by omega)]
  simp only [Int.toNat_natCast]
  omega

end Cert.ReferenceIdeal.Entries

end
-- ==== Proof.IdsRange.lean ====
/-
  What the precondition says about the cluster ids.

  The printed precondition is a conjunction, folded left to right, of "every entry of this float array is finite"
  and, last, "every cluster id is at least 0 and less than 50" (the rows of the probability table the reference
  indexes). Only the last conjunct is used by the proof: an id is then a word whose unsigned value is below 50.
-/
import proofs.«422023_j26886495273500_3_alg».proof.Defs
import proofs.«422023_j26886495273500_3_alg».proof.Proof.Gen.Pre_finite_inputs
import Idealize.ShloMosaic.Lib.ReduceAll
import Idealize.ShloMosaic.Lib.Affine
import Idealize.ShloMosaic.Lib.ValueIdx
import Idealize.ShloMosaic.Lib.StableHlo.Predicate

namespace Cert.Proof.IdsRange

open Idealize.ShloMosaic Idealize.ShloMosaic.ValueIdx
open Cert.Pre_finite_inputs Cert.Pre_finite_inputs.Gen

/-- A word that is signed-at-least 0 and signed-less-than 50 has an unsigned value below 50. -/
theorem word_lt_fifty (a : BitVec 32) (h0 : IntOp.cmpi .sge a 0#32 = 1#1) (h1 : IntOp.cmpi .slt a 50#32 = 1#1) :
    a.toNat < 50 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have f : (50#32 : BitVec 32).toInt = 50 := by decide
  rw [z] at h0
  rw [f] at h1
  have ha := BitVec.toInt_eq_toNat_cond a
  have hlt : a.toNat < 2 ^ 32 := a.isLt
  split at ha <;> omega

instance : Subsingleton S_.Idx := ⟨fun a b => funext fun d => d.elim0⟩

variable {F : FTy → Type} [FloatOps F]

/-- Under the precondition every cluster id is a word below 50. -/
theorem ids_lt_fifty (a0 : FVec F S2000000x32 .f32) (a1 : IVec S2000000x1 32) (a2 : FVec F S50x32 .f32)
    (a3 : FVec F S32x32 .f32) (a4 : FVec F S32 .f32) (a5 : FVec F S32x32 .f32) (a6 : FVec F S32 .f32)
    (a7 : FVec F S32x1 .f32) (a8 : FVec F S1 .f32) (a9 : FVec F S2x50x1 .f32)
    (h : fn (F := F) a0 a1 a2 a3 a4 a5 a6 a7 a8 a9 = fun _ => 1#1) (i : S2000000x1.Idx) : (a1 i).toNat < 50 := by
  have h0 := congrFun h ix0
  dsimp only [fn, fn_part1, fn_part2] at h0
  have h49 := (IntOp.andi_eq_one.mp h0).2
  have h48 := IntOp.andi_eq_one.mp (Host.reduce_andi_all _ _ _ _ ix0 h49 i)
  exact word_lt_fifty (a1 i) h48.1 h48.2

end Cert.Proof.IdsRange
-- ==== Proof.lean ====
/-
  Cluster probabilities looked up by cluster id: the Pallas kernel against `cluster_probs[cluster_ids[:, 0]]`.

  Both programs compute, by the same host operations, a column P of 50 probabilities from the embeddings, the three
  linear layers and the uniforms. The reference returns P[ids[n]] for each of the 2,000,000 ids (negative ids
  wrapped by +50, then clamped into 0‥49, as jnp indexes). The kernel program writes P over the first 50 of 128 zeros,
  lays the ids out 128 to a row, and in two grid points of 8192 rows (the second overhanging the 15625-row array)
  gathers, for every id, the table entry numbered by the id's low seven bits.

  The two agree exactly where the reference's indexing is in range: for an id in 0‥49 the low seven bits are the id,
  the table entry is P at that row, and neither the wrap nor the clamp acts. Outside that range they differ (an id
  of 60 reads a zero of the padding in the kernel and P[49] in the reference), which is why the precondition carries
  the conjunct 0 ≤ ids < 50 beside the finiteness of the float inputs. Finiteness itself is not used: no law of
  arithmetic is needed, the two results are the same entry of the same column.

  The pieces: the kernel programs' runs and frames (LookupIdeal, and its copy for the word-level program), the
  kernel program's result as one function of its arguments (LookupValue, HostSide, KernelEntries), the reference's
  result entry by entry (RefEntries, over the generated run and stages), and the range of the ids read off the
  precondition (IdsRange).
-/
import proofs.«422023_j26886495273500_3_alg».proof.Defs
import proofs.«422023_j26886495273500_3_alg».proof.Proof.Gen.Kernel
import proofs.«422023_j26886495273500_3_alg».proof.Proof.Gen.KernelIdeal
import proofs.«422023_j26886495273500_3_alg».proof.Proof.Gen.ReferenceIdeal
import proofs.«422023_j26886495273500_3_alg».proof.Proof.Gen.ReferenceIdeal.Run
import proofs.«422023_j26886495273500_3_alg».proof.Proof.Gen.ReferenceIdeal.Read
import proofs.«422023_j26886495273500_3_alg».proof.Proof.Gen.Pre_finite_inputs
import proofs.«422023_j26886495273500_3_alg».proof.Proof.LookupWord
import proofs.«422023_j26886495273500_3_alg».proof.Proof.LookupValue
import proofs.«422023_j26886495273500_3_alg».proof.Proof.KernelEntries
import proofs.«422023_j26886495273500_3_alg».proof.Proof.RefEntries
import proofs.«422023_j26886495273500_3_alg».proof.Proof.IdsRange
import Idealize.ShloMosaic.Adequacy
import Idealize.ShloMosaic.Init

noncomputable section

namespace Cert.Proof

open Idealize.ShloMosaic Idealize.ShloMosaic.ValueIdx Idealize.SL.Sem

/-- The word-level kernel program runs to the end and leaves its arguments alone. -/
theorem frame_word : Cert.frame_Kernel := fun m ρ _ => Cert.Kernel.Lookup.frame m ρ

/-- So does the idealized kernel program. -/
theorem frame_ideal : Cert.frame_KernelIdeal := fun m ρ _ => Cert.KernelIdeal.Lookup.frame m ρ

/-- The reference is host operations only: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, with every id in 0‥49: entry `n` of either result is the probability
    at row `ids[n]`. -/
theorem algebraic : Cert.algebraic_KernelIdeal_ReferenceIdeal := by
  intro m ρ m' ρ' hpre hagree
  refine ⟨fun c => shapeCast Cert.KernelIdeal.S2000000x1
      (Cert.KernelIdeal.Lookup.wholeLookup (Cert.KernelIdeal.Gen.V m c Cert.KernelIdeal.main_v37)
        (Cert.KernelIdeal.Gen.V m c Cert.KernelIdeal.main_v39)) Cert.KernelIdeal.Gen.shapeCasts_S15625x128_S2000000x1,
    Cert.KernelIdeal.Lookup.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨-, h1, h2, h3, h4, h5, h6, h7, h8, h9⟩ := hagree c
  rw [Cert.ReferenceIdeal.Read.val_main_v40_eq, h1, h2, h3, h4, h5, h6, h7, h8, h9]
  funext i
  obtain ⟨n, z, rfl⟩ : ∃ (n : Fin 2000000) (z : Fin 1), i = ix2 n z := ⟨i 0, i 1, eq_ix2 i⟩
  obtain rfl : z = 0 := Subsingleton.elim _ _
  have hr : ((m ((c.tc : Thread Cert.KernelIdeal.nD Cert.KernelIdeal.τ).loc Cert.KernelIdeal.main_arg1)) (ix2 n (0 : Fin 1))).toNat < 50 :=
    Cert.Proof.IdsRange.ids_lt_fifty (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (hpre c) (ix2 n (0 : Fin 1))
  refine (Cert.ReferenceIdeal.Entries.ref_entry _ _ _ _ _ _ _ _ _ n hr).trans ?_
  refine Eq.trans ?_ (Cert.KernelIdeal.Entries.kernel_entry m c n hr).symm
  exact (congrFun (Cert.KernelIdeal.HostSide.probs_array m c) _).symm

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
